-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)) (v1 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_v39) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000 : Shape := ⟨1, ![500000]⟩
abbrev S128x128 : Shape := ⟨2, ![128, 128]⟩
abbrev S_ : Shape := ⟨0, ![]⟩

class Facts : Prop where
  bcast_S_S500000 : S_.BroadcastsInDim S500000 (![] : Fin 0 → Fin S500000.rank)
  reducesTo_S500000_S_d0 : S500000.ReducesTo [0] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S500000 .f32) (main_arg1 : FVec F S500000 .f32) (main_arg2 : FVec F S128x128 .f32) : IVec S_ 1 :=
  let main_v0 : FVec F S500000 .f32 := Host.absf main_arg0
  let main_cst : FVec F S_ .f32 := constant S_ .f32 0x7F800000#32
  let main_v1 : FVec F S500000 .f32 := broadcastInDim S500000 ![] bcast_S_S500000 main_cst
  let main_v2 : IVec S500000 1 := cmpf .olt main_v0 main_v1
  let main_c : IVec S_ 1 := constantI S_ 1 1#1
  let main_v3 : IVec S_ 1 := (fun x v => Host.reduce IntOp.andi x v reducesTo_S500000_S_d0 h_S_) main_v2 main_c
  let main_v4 : FVec F S500000 .f32 := Host.absf main_arg1
  let main_cst_0 : FVec F S_ .f32 := constant S_ .f32 0x7F800000#32
  let main_v5 : FVec F S500000 .f32 := broadcastInDim S500000 ![] bcast_S_S500000 main_cst_0
  let main_v6 : IVec S500000 1 := cmpf .olt main_v4 main_v5
  let main_c_1 : IVec S_ 1 := constantI S_ 1 1#1
  let main_v7 : IVec S_ 1 := (fun x v => Host.reduce IntOp.andi x v reducesTo_S500000_S_d0 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S500000 : Shape := ⟨1, ![500000]⟩
abbrev S128x128 : Shape := ⟨2, ![128, 128]⟩
abbrev S7811 : Shape := ⟨1, ![7811]⟩
abbrev S7811x1 : Shape := ⟨2, ![7811, 1]⟩
abbrev S_ : Shape := ⟨0, ![]⟩
abbrev S128 : Shape := ⟨1, ![128]⟩
abbrev S1x128 : Shape := ⟨2, ![1, 128]⟩
abbrev S7811x128 : Shape := ⟨2, ![7811, 128]⟩
abbrev S7811x128x1 : Shape := ⟨3, ![7811, 128, 1]⟩
abbrev S7811x128x2 : Shape := ⟨3, ![7811, 128, 2]⟩
abbrev S128x1 : Shape := ⟨2, ![128, 1]⟩
abbrev S7811x128x128 : Shape := ⟨3, ![7811, 128, 128]⟩
abbrev S107x128x128 : Shape := ⟨3, ![107, 128, 128]⟩
abbrev S1x128x128 : Shape := ⟨3, ![1, 128, 128]⟩

abbrev nBuf : Space → Nat
  | .hbm => 50
  | .vmem => 4
  | .smem => 0
  | _ => 0

abbrev bufTy : (tb : Table) → Fin (tcTables nBuf tb) → BufTy
  | .hbm, ⟨0, _⟩ => ⟨S500000, .f32⟩
  | .hbm, ⟨1, _⟩ => ⟨S500000, .f32⟩
  | .hbm, ⟨2, _⟩ => ⟨S128x128, .f32⟩
  | .hbm, ⟨3, _⟩ => ⟨S7811, .i32⟩
  | .hbm, ⟨4, _⟩ => ⟨S7811x1, .i32⟩
  | .hbm, ⟨5, _⟩ => ⟨S_, .i32⟩
  | .hbm, ⟨6, _⟩ => ⟨S7811x1, .i32⟩
  | .hbm, ⟨7, _⟩ => ⟨S7811x1, .i32⟩
  | .hbm, ⟨8, _⟩ => ⟨S128, .i32⟩
  | .hbm, ⟨9, _⟩ => ⟨S1x128, .i32⟩
  | .hbm, ⟨10, _⟩ => ⟨S7811x128, .i32⟩
  | .hbm, ⟨11, _⟩ => ⟨S7811x128, .i32⟩
  | .hbm, ⟨12, _⟩ => ⟨S7811x128, .i32⟩
  | .hbm, ⟨13, _⟩ => ⟨S_, .i32⟩
  | .hbm, ⟨14, _⟩ => ⟨S7811x128, .i32⟩
  | .hbm, ⟨15, _⟩ => ⟨S7811x128, .i1⟩
  | .hbm, ⟨16, _⟩ => ⟨S_, .i32⟩
  | .hbm, ⟨17, _⟩ => ⟨S7811x128, .i32⟩
  | .hbm, ⟨18, _⟩ => ⟨S7811x128, .i32⟩
  | .hbm, ⟨19, _⟩ => ⟨S7811x128, .i32⟩
  | .hbm, ⟨20, _⟩ => ⟨S7811x128x1, .i32⟩
  | .hbm, ⟨21, _⟩ => ⟨S7811x128, .f32⟩
  | .hbm, ⟨22, _⟩ => ⟨S_, .i32⟩
  | .hbm, ⟨23, _⟩ => ⟨S7811x128, .i32⟩
  | .hbm, ⟨24, _⟩ => ⟨S7811x128, .i1⟩
  | .hbm, ⟨25, _⟩ => ⟨S_, .i32⟩
  | .hbm, ⟨26, _⟩ => ⟨S7811x128, .i32⟩
  | .hbm, ⟨27, _⟩ => ⟨S7811x128, .i32⟩
  | .hbm, ⟨28, _⟩ => ⟨S7811x128, .i32⟩
  | .hbm, ⟨29, _⟩ => ⟨S7811x128x1, .i32⟩
  | .hbm, ⟨30, _⟩ => ⟨S7811x128, .f32⟩
  | .hbm, ⟨31, _⟩ => ⟨S7811x128x1, .f32⟩
  | .hbm, ⟨32, _⟩ => ⟨S7811x128x1, .f32⟩
  | .hbm, ⟨33, _⟩ => ⟨S7811x128x2, .f32⟩
  | .hbm, ⟨34, _⟩ => ⟨S128, .i32⟩
  | .hbm, ⟨35, _⟩ => ⟨S128x1, .i32⟩
  | .hbm, ⟨36, _⟩ => ⟨S1x128, .i32⟩
  | .hbm, ⟨37, _⟩ => ⟨S128x128, .i32⟩
  | .hbm, ⟨38, _⟩ => ⟨S128x128, .i32⟩
  | .hbm, ⟨39, _⟩ => ⟨S128x128, .i32⟩
  | .hbm, ⟨40, _⟩ => ⟨S128x128, .i32⟩
  | .hbm, ⟨41, _⟩ => ⟨S_, .i32⟩
  | .hbm, ⟨42, _⟩ => ⟨S128x128, .i32⟩
  | .hbm, ⟨43, _⟩ => ⟨S128x128, .i1⟩
  | .hbm, ⟨44, _⟩ => ⟨S_, .i32⟩
  | .hbm, ⟨45, _⟩ => ⟨S128x128, .i32⟩
  | .hbm, ⟨46, _⟩ => ⟨S128x128, .i1⟩
  | .hbm, ⟨47, _⟩ => ⟨S128x128, .i1⟩
  | .hbm, ⟨48, _⟩ => ⟨S128x128, .f32⟩
  | .hbm, ⟨49, _⟩ => ⟨S7811x128x128, .f32⟩
  | .local _ .vmem, ⟨0, _⟩ => ⟨S128x128, .f32⟩
  | .local _ .vmem, ⟨1, _⟩ => ⟨S128x128, .f32⟩
  | .local _ .vmem, ⟨2, _⟩ => ⟨S107x128x128, .f32⟩
  | .local _ .vmem, ⟨3, _⟩ => ⟨S107x128x128, .f32⟩
  | _, _ => ⟨S500000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_2 : Ref sig .tc := ⟨.hbm, 22, rfl⟩
abbrev main_v16 : Ref sig .tc := ⟨.hbm, 23, rfl⟩
abbrev main_v17 : Ref sig .tc := ⟨.hbm, 24, rfl⟩
abbrev main_c_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_c_4 : Ref sig .tc := ⟨.hbm, 41, rfl⟩
abbrev main_v33 : Ref sig .tc := ⟨.hbm, 42, rfl⟩
abbrev main_v34 : Ref sig .tc := ⟨.hbm, 43, rfl⟩
abbrev main_c_5 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![73], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S107x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S7811_S7811x1_0 : S7811.BroadcastsInDim S7811x1 (![0] : Fin 1 → Fin S7811x1.rank)
  bcast_S_S7811x1 : S_.BroadcastsInDim S7811x1 (![] : Fin 0 → Fin S7811x1.rank)
  bcast_S128_S1x128_1 : S128.BroadcastsInDim S1x128 (![1] : Fin 1 → Fin S1x128.rank)
  bcast_S7811x1_S7811x128_0_1 : S7811x1.BroadcastsInDim S7811x128 (![0, 1] : Fin 2 → Fin S7811x128.rank)
  bcast_S1x128_S7811x128_0_1 : S1x128.BroadcastsInDim S7811x128 (![0, 1] : Fin 2 → Fin S7811x128.rank)
  bcast_S_S7811x128 : S_.BroadcastsInDim S7811x128 (![] : Fin 0 → Fin S7811x128.rank)
  bcast_S7811x128_S7811x128x1_0_1 : S7811x128.BroadcastsInDim S7811x128x1 (![0, 1] : Fin 2 → Fin S7811x128x1.rank)
  concatenates_S7811x128x1_S7811x128x1_S7811x128x2_d2 : Shape.Concatenates [S7811x128x1, S7811x128x1] S7811x128x2 2
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  bcast_S_S128x128 : S_.BroadcastsInDim S128x128 (![] : Fin 0 → Fin S128x128.rank)
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128x128_S1x128x128 : S128x128.ShapeCasts S1x128x128
  shapeCasts_S1x128x128_S1x128x128 : S1x128x128.ShapeCasts S1x128x128
  broadcasts_S1x128x128_S107x128x128 : S1x128x128.Broadcasts S107x128x128
  inb_S107x128x128_S107x128x128_0_0_0 : ∀ a, (![0, 0, 0] : Fin 3 → Nat) a + S107x128x128.size a ≤ S107x128x128.size a
  h_S107x128x128 : 0 < S107x128x128.numel
  gather_S500000_S7811x128x1_S7811x128_n_0_n_n_0_2_1_wf : GatherDims.WF S500000 S7811x128x1 S7811x128 [] [0] [] [0] [] 2 ![1]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S128x128.size a
  hwx0_0 : ∀ i : grid0.Coords, EltTy.bits .f32 = 32 ∨ (Rect.block (s := S128x128) S128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S107x128x128.size a ≤ S7811x128x128.size a
  hwx0_2 : ∀ i : grid0.Coords, EltTy.bits .f32 = 32 ∨ (Rect.block (s := S7811x128x128) S107x128x128.size (cc0_transform_2 i) (hinb0_2 i)).WholeWords (EltTy.packing .f32)

variable [Facts₀]

def gather_S500000_S7811x128x1_S7811x128_n_0_n_n_0_2_1 : GatherDims S500000 S7811x128x1 S7811x128 where
  offsetDims := []
  collapsedSliceDims := [0]
  operandBatchingDims := []
  startIndicesBatchingDims := []
  startIndexMap := [0]
  indexVectorDim := 2
  sliceSizes := ![1]
  wf := gather_S500000_S7811x128x1_S7811x128_n_0_n_n_0_2_1_wf

abbrev win0_0 : Pipeline.Window sig grid0 :=
  Pipeline.Window.ofSpec (Memref.whole main_arg2) S128x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v38) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v39) S107x128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S500000 : Shape := ⟨1, ![500000]⟩
abbrev S128x128 : Shape := ⟨2, ![128, 128]⟩
abbrev S7811 : Shape := ⟨1, ![7811]⟩
abbrev S7811x1 : Shape := ⟨2, ![7811, 1]⟩
abbrev S_ : Shape := ⟨0, ![]⟩
abbrev S128 : Shape := ⟨1, ![128]⟩
abbrev S1x128 : Shape := ⟨2, ![1, 128]⟩
abbrev S7811x128 : Shape := ⟨2, ![7811, 128]⟩
abbrev S7811x128x1 : Shape := ⟨3, ![7811, 128, 1]⟩
abbrev S7811x128x2 : Shape := ⟨3, ![7811, 128, 2]⟩
abbrev S128x1 : Shape := ⟨2, ![128, 1]⟩
abbrev S7811x128x128 : Shape := ⟨3, ![7811, 128, 128]⟩

abbrev nBuf : Space → Nat
  | .hbm => 59
  | .vmem => 0
  | .smem => 0
  | _ => 0

abbrev bufTy : (tb : Table) → Fin (tcTables nBuf tb) → BufTy
  | .hbm, ⟨0, _⟩ => ⟨S500000, .f32⟩
  | .hbm, ⟨1, _⟩ => ⟨S500000, .f32⟩
  | .hbm, ⟨2, _⟩ => ⟨S128x128, .f32⟩
  | .hbm, ⟨3, _⟩ => ⟨S7811, .i32⟩
  | .hbm, ⟨4, _⟩ => ⟨S7811x1, .i32⟩
  | .hbm, ⟨5, _⟩ => ⟨S_, .i32⟩
  | .hbm, ⟨6, _⟩ => ⟨S7811x1, .i32⟩
  | .hbm, ⟨7, _⟩ => ⟨S7811x1, .i32⟩
  | .hbm, ⟨8, _⟩ => ⟨S128, .i32⟩
  | .hbm, ⟨9, _⟩ => ⟨S1x128, .i32⟩
  | .hbm, ⟨10, _⟩ => ⟨S7811x128, .i32⟩
  | .hbm, ⟨11, _⟩ => ⟨S7811x128, .i32⟩
  | .hbm, ⟨12, _⟩ => ⟨S7811x128, .i32⟩
  | .hbm, ⟨13, _⟩ => ⟨S_, .i32⟩
  | .hbm, ⟨14, _⟩ => ⟨S7811x128, .i32⟩
  | .hbm, ⟨15, _⟩ => ⟨S7811x128, .i1⟩
  | .hbm, ⟨16, _⟩ => ⟨S_, .i32⟩
  | .hbm, ⟨17, _⟩ => ⟨S7811x128, .i32⟩
  | .hbm, ⟨18, _⟩ => ⟨S7811x128, .i32⟩
  | .hbm, ⟨19, _⟩ => ⟨S7811x128, .i32⟩
  | .hbm, ⟨20, _⟩ => ⟨S7811x128x1, .i32⟩
  | .hbm, ⟨21, _⟩ => ⟨S7811x128, .f32⟩
  | .hbm, ⟨22, _⟩ => ⟨S_, .i32⟩
  | .hbm, ⟨23, _⟩ => ⟨S7811x128, .i32⟩
  | .hbm, ⟨24, _⟩ => ⟨S7811x128, .i1⟩
  | .hbm, ⟨25, _⟩ => ⟨S_, .i32⟩
  | .hbm, ⟨26, _⟩ => ⟨S7811x128, .i32⟩
  | .hbm, ⟨27, _⟩ => ⟨S7811x128, .i32⟩
  | .hbm, ⟨28, _⟩ => ⟨S7811x128, .i32⟩
  | .hbm, ⟨29, _⟩ => ⟨S7811x128x1, .i32⟩
  | .hbm, ⟨30, _⟩ => ⟨S7811x128, .f32⟩
  | .hbm, ⟨31, _⟩ => ⟨S7811x128x1, .f32⟩
  | .hbm, ⟨32, _⟩ => ⟨S7811x128x1, .f32⟩
  | .hbm, ⟨33, _⟩ => ⟨S7811x128x2, .f32⟩
  | .hbm, ⟨34, _⟩ => ⟨S128, .i32⟩
  | .hbm, ⟨35, _⟩ => ⟨S128x1, .i32⟩
  | .hbm, ⟨36, _⟩ => ⟨S1x128, .i32⟩
  | .hbm, ⟨37, _⟩ => ⟨S128x128, .i32⟩
  | .hbm, ⟨38, _⟩ => ⟨S128x128, .i32⟩
  | .hbm, ⟨39, _⟩ => ⟨S128x128, .i32⟩
  | .hbm, ⟨40, _⟩ => ⟨S128x128, .i32⟩
  | .hbm, ⟨41, _⟩ => ⟨S_, .i32⟩
  | .hbm, ⟨42, _⟩ => ⟨S128x128, .i32⟩
  | .hbm, ⟨43, _⟩ => ⟨S128x128, .i1⟩
  | .hbm, ⟨44, _⟩ => ⟨S_, .i32⟩
  | .hbm, ⟨45, _⟩ => ⟨S128x128, .i32⟩
  | .hbm, ⟨46, _⟩ => ⟨S128x128, .i1⟩
  | .hbm, ⟨47, _⟩ => ⟨S128x128, .i1⟩
  | .hbm, ⟨48, _⟩ => ⟨S128x128, .f32⟩
  | .hbm, ⟨49, _⟩ => ⟨S128x128, .f32⟩
  | .hbm, ⟨50, _⟩ => ⟨S128x128, .f32⟩
  | .hbm, ⟨51, _⟩ => ⟨S_, .f32⟩
  | .hbm, ⟨52, _⟩ => ⟨S128x128, .f32⟩
  | .hbm, ⟨53, _⟩ => ⟨S128x128, .f32⟩
  | .hbm, ⟨54, _⟩ => ⟨S_, .f32⟩
  | .hbm, ⟨55, _⟩ => ⟨S128x128, .f32⟩
  | .hbm, ⟨56, _⟩ => ⟨S128x128, .f32⟩
  | .hbm, ⟨57, _⟩ => ⟨S128x128, .f32⟩
  | .hbm, ⟨58, _⟩ => ⟨S7811x128x128, .f32⟩
  | _, _ => ⟨S500000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_2 : Ref sig .tc := ⟨.hbm, 22, rfl⟩
abbrev main_v16 : Ref sig .tc := ⟨.hbm, 23, rfl⟩
abbrev main_v17 : Ref sig .tc := ⟨.hbm, 24, rfl⟩
abbrev main_c_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_c_4 : Ref sig .tc := ⟨.hbm, 41, rfl⟩
abbrev main_v33 : Ref sig .tc := ⟨.hbm, 42, rfl⟩
abbrev main_v34 : Ref sig .tc := ⟨.hbm, 43, rfl⟩
abbrev main_c_5 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst : Ref sig .tc := ⟨.hbm, 51, rfl⟩
abbrev main_v41 : Ref sig .tc := ⟨.hbm, 52, rfl⟩
abbrev main_v42 : Ref sig .tc := ⟨.hbm, 53, rfl⟩
abbrev main_cst_6 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩

abbrev nD : Nat := 1
abbrev τ : Topo := Topo.v7x

variable {F : FTy → Type} [FloatOps F]

class Facts₀ : Prop where
  bcast_S7811_S7811x1_0 : S7811.BroadcastsInDim S7811x1 (![0] : Fin 1 → Fin S7811x1.rank)
  bcast_S_S7811x1 : S_.BroadcastsInDim S7811x1 (![] : Fin 0 → Fin S7811x1.rank)
  bcast_S128_S1x128_1 : S128.BroadcastsInDim S1x128 (![1] : Fin 1 → Fin S1x128.rank)
  bcast_S7811x1_S7811x128_0_1 : S7811x1.BroadcastsInDim S7811x128 (![0, 1] : Fin 2 → Fin S7811x128.rank)
  bcast_S1x128_S7811x128_0_1 : S1x128.BroadcastsInDim S7811x128 (![0, 1] : Fin 2 → Fin S7811x128.rank)
  bcast_S_S7811x128 : S_.BroadcastsInDim S7811x128 (![] : Fin 0 → Fin S7811x128.rank)
  bcast_S7811x128_S7811x128x1_0_1 : S7811x128.BroadcastsInDim S7811x128x1 (![0, 1] : Fin 2 → Fin S7811x128x1.rank)
  concatenates_S7811x128x1_S7811x128x1_S7811x128x2_d2 : Shape.Concatenates [S7811x128x1, S7811x128x1] S7811x128x2 2
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  bcast_S_S128x128 : S_.BroadcastsInDim S128x128 (![] : Fin 0 → Fin S128x128.rank)
  bcast_S128x128_S7811x128x128_1_2 : S128x128.BroadcastsInDim S7811x128x128 (![1, 2] : Fin 2 → Fin S7811x128x128.rank)
  gather_S500000_S7811x128x1_S7811x128_n_0_n_n_0_2_1_wf : GatherDims.WF S500000 S7811x128x1 S7811x128 [] [0] [] [0] [] 2 ![1]

variable [Facts₀]

def gather_S500000_S7811x128x1_S7811x128_n_0_n_n_0_2_1 : GatherDims S500000 S7811x128x1 S7811x128 where
  offsetDims := []
  collapsedSliceDims := [0]
  operandBatchingDims := []
  startIndicesBatchingDims := []
  startIndexMap := [0]
  indexVectorDim := 2
  sliceSizes := ![1]
  wf := gather_S500000_S7811x128x1_S7811x128_n_0_n_n_0_2_1_wf

class Facts : Prop extends Facts₀ where

variable [Facts]
-- ==== Proof.BandedTile.lean ====
/-
  The banded adjacency of a patch, stacked once per patch.

  For a 128 × 128 tile of edge weights `w` and a 128 × 128 band mask `b`, the adjacency of a patch is
  `σ(w[i, j]) · b[i, j]`, where `σ(x) = 1 / (1 + e^(-x))` is the logistic function. Every one of the 7811 patches
  has the same adjacency, so the stacked result at `(p, i, j)` is `σ(w[i, j]) · b[i, j]`, whatever `p` is:
  `adjs w b`.

  On the extended reals the logistic function IS the quotient `1 / (1 + e^(-x))` (with `σ(-∞) = 0` and
  `σ(+∞) = 1` coming out of the conventions for `e^(±∞)` and for a quotient by `+∞`), so a program that spells
  the quotient out operation by operation and then copies the tile along a new leading axis computes
  `adjs w b` as well: `stack_of_quotient`. No law of arithmetic is used beyond that identity, and in particular
  nothing needs the weights to be finite.
-/
import Idealize.ShloMosaic.PureOps.Ideal
import Idealize.ShloMosaic.Lib.ValueIdx
import Idealize.ShloMosaic.Lib.Pipeline.Value
import Idealize.ShloMosaic.Lib.IdealHost

noncomputable section

namespace Cert.Banded

open Idealize.ShloMosaic Idealize.ShloMosaic.ValueIdx

/-- One patch's adjacency: 128 × 128. -/
abbrev Tile : Shape := ⟨2, ![128, 128]⟩
/-- All patches' adjacencies: 7811 × 128 × 128. -/
abbrev Stack : Shape := ⟨3, ![7811, 128, 128]⟩
/-- A scalar. -/
abbrev Point : Shape := ⟨0, ![]⟩

/-- The tile position `(i, j)` that the stack position `(p, i, j)` copies. -/
abbrev under (y : Stack.Idx) : Tile.Idx := fun a => match a with
  | ⟨0, _⟩ => ⟨(y 1).val, show (y 1).val < 128 from (y 1).isLt⟩
  | ⟨1, _⟩ => ⟨(y 2).val, show (y 2).val < 128 from (y 2).isLt⟩

variable {F : FTy → Type} [FloatOps F]

/-- The stacked adjacencies: `σ(w[i, j]) · b[i, j]` at every `(p, i, j)`. -/
def adjs (w b : Vec F Tile .f32) : Vec F Stack .f32 :=
  fun y => FloatOps.mulf (FloatOps.logistic (w (under y))) (b (under y))

/-- The quotient `1 / (1 + e^(-w))` taken entry by entry, times the mask, copied along a new leading axis, is
    the stacked adjacencies: at `(p, i, j)` the copy reads the tile at `(i, j)`, the two scalar ones are the
    extended real `1`, and `1 / (1 + e^(-x))` is the logistic function's definition. -/
theorem stack_of_quotient (hcopy : Tile.BroadcastsInDim Stack ![1, 2]) (hfill : Point.BroadcastsInDim Tile ![])
    (w b : FVec Ideal Tile .f32) :
    broadcastInDim Stack ![1, 2] hcopy
        (mulf (Host.divf (broadcastInDim Tile ![] hfill (constant Point .f32 0x3F800000#32))
                (addf (broadcastInDim Tile ![] hfill (constant Point .f32 0x3F800000#32)) (Host.exp (Host.negf w))))
          b)
      = adjs (F := Ideal) w b := by
  funext y
  refine (broadcastInDim_apply ![1, 2] hcopy _ y (under y) (fun a => match a with
    | ⟨0, _⟩ => by show (y 1).val = (if (128 : Nat) = 1 then 0 else (y 1).val); rw [if_neg (by decide)]
    | ⟨1, _⟩ => by show (y 2).val = (if (128 : Nat) = 1 then 0 else (y 2).val); rw [if_neg (by decide)])).trans ?_
  simp only [adjs, mulf, Host.divf, addf, Host.exp, Host.negf, broadcastInDim, constant, Ideal.ofBits_def,
    Ideal.ofBits_one_f32, Ideal.hostDivf_def, Ideal.addf_def, Ideal.hostUnary_exp_def, Ideal.hostNegf_def, Ideal.negf_def,
    Ideal.logistic_def, Ideal.logistic]

end Cert.Banded

end
-- ==== Proof.KernelHost.lean ====
/-
  What the host operations before the kernel compute.

  PATCHES. Position `(p, t)` of the sample table is `64·p + t` (`p < 7811`, `t < 128`; the program also wraps a
  negative index around by adding 500000, as indexing with a possibly negative integer does, though none is negative here):
  `sampleTable`. Patch `p` of a signal `x` is `x` gathered at row `p` of the table, and the result pairs the
  two signals' patches along a last axis of length 2: `patchesOf x₀ x₁`.

  BAND MASK. `bandMask` is `1` where `0 < |i - j| ≤ 16` and `0` elsewhere, on 128 × 128.

  Both are read off the program's host operations, one operation's result at a time: the patches array and the mask
  the region finds are these terms (`patches_found`, `mask_found`).
-/
import proofs.«112258_j90082644066743_1_alg».proof.Proof.Gen.KernelIdeal.Frame
import Idealize.ShloMosaic.Lib.StableHlo.Run

noncomputable section

namespace Cert.KernelIdeal.HostSide

open Cert.KernelIdeal Cert.KernelIdeal.Gen Idealize.ShloMosaic Idealize.ShloMosaic.TcCoe Idealize.SL.Sem
open Idealize.ShloMosaic.StableHlo

variable {F : FTy → Type} [FloatOps F]

/-- `64·p + t` at `(p, t)`, as 32-bit words. -/
def sampleBase : IVec S7811x128 32 :=
  addi
    (broadcastInDim S7811x128 ![0, 1] bcast_S7811x1_S7811x128_0_1
      (muli (broadcastInDim S7811x1 ![0] bcast_S7811_S7811x1_0 (iotaInDim S7811 32 0))
        (broadcastInDim S7811x1 ![] bcast_S_S7811x1 (constantI S_ 32 64#32))))
    (broadcastInDim S7811x128 ![0, 1] bcast_S1x128_S7811x128_0_1
      (broadcastInDim S1x128 ![1] bcast_S128_S1x128_1 (iotaInDim S128 32 0)))

/-- The sample table: `64·p + t`, a negative entry wrapped around by the signal's length. -/
def sampleTable : IVec S7811x128 32 :=
  select (cmpi .slt sampleBase (broadcastInDim S7811x128 ![] bcast_S_S7811x128 (constantI S_ 32 0#32)))
    (addi sampleBase (broadcastInDim S7811x128 ![] bcast_S_S7811x128 (constantI S_ 32 500000#32)))
    sampleBase

/-- One signal's patches: the signal gathered at the sample table, with a unit last axis. -/
def patchesOfOne (x : FVec F S500000 .f32) : FVec F S7811x128x1 .f32 :=
  broadcastInDim S7811x128x1 ![0, 1] bcast_S7811x128_S7811x128x1_0_1
    (Host.gather gather_S500000_S7811x128x1_S7811x128_n_0_n_n_0_2_1 x
      (broadcastInDim S7811x128x1 ![0, 1] bcast_S7811x128_S7811x128x1_0_1 sampleTable))

/-- The two signals' patches side by side along the last axis. -/
def patchesOf (x₀ x₁ : FVec F S500000 .f32) : FVec F S7811x128x2 .f32 :=
  concatenate S7811x128x2 2 [⟨S7811x128x1, patchesOfOne x₀⟩, ⟨S7811x128x1, patchesOfOne x₁⟩]
    concatenates_S7811x128x1_S7811x128x1_S7811x128x2_d2

/-- `|i - j|` at `(i, j)`, as 32-bit words. -/
def bandDistance : IVec S128x128 32 :=
  absi (subi
    (broadcastInDim S128x128 ![0, 1] bcast_S128x1_S128x128_0_1
      (broadcastInDim S128x1 ![0] bcast_S128_S128x1_0 (iotaInDim S128 32 0)))
    (broadcastInDim S128x128 ![0, 1] bcast_S1x128_S128x128_0_1
      (broadcastInDim S1x128 ![1] bcast_S128_S1x128_1 (iotaInDim S128 32 0))))

/-- The band mask: `1` where `|i - j| ≤ 16` and `|i - j| > 0`, else `0`. -/
def bandMask : FVec F S128x128 .f32 :=
  uitofp .f32
    (andi (cmpi .sle bandDistance (broadcastInDim S128x128 ![] bcast_S_S128x128 (constantI S_ 32 16#32)))
      (cmpi .sgt bandDistance (broadcastInDim S128x128 ![] bcast_S_S128x128 (constantI S_ 32 0#32))))

variable (m : (ℓ : Loc nD τ sig) → Buf (Elt F) ℓ)

set_option maxRecDepth 8192 in
set_option maxHeartbeats 2000000 in
/-- The patches array the region finds is `patchesOf` of the two launched signals. -/
theorem patches_found (c : Dev nD) :
    V m c main_v25 = patchesOf (m ((c : Thread nD τ).loc main_arg0)) (m ((c : Thread nD τ).loc main_arg1)) := by
  dsimp only [V, hostOps0]
  after_results_simp
  rfl

set_option maxRecDepth 8192 in
set_option maxHeartbeats 2000000 in
/-- The mask the region finds is the band mask. -/
theorem mask_found (c : Dev nD) : V m c main_v38 = bandMask (F := F) := by
  dsimp only [V, hostOps0]
  after_results_simp
  rfl

end Cert.KernelIdeal.HostSide

end
-- ==== Proof.KernelAdjs.lean ====
/-
  What the kernel leaves in the adjacency array.

  The kernel's grid has 73 points. Every point reads the same two 128 × 128 tiles whole — the edge weights `w` and
  the band mask `b` — and writes one block of 107 patches: rows `107·t … 107·t + 106` of the 7811 × 128 × 128 result,
  each patch the tile `σ(w[i, j]) · b[i, j]`. So at array position `(p, i, j)` inside block `t` the written value
  is `σ(w[i, j]) · b[i, j]`: block `t` of the written array is block `t` of `adjs w b` (`flushed_eq`). Since
  `73 · 107 = 7811` the blocks cover every patch — patch `p` lies in block `p / 107` (`covered`) — and the array ends
  holding `adjs w b` (`final`). The patches themselves are computed before the kernel runs and are not touched by it, so
  they end as the region found them; with the host operations read (Proof/KernelHost.lean) the run ends with the
  patches at `patchesOf` of the two signals and the adjacencies at `adjs` of the weights and the band mask (`run`).
-/
import proofs.«112258_j90082644066743_1_alg».proof.Proof.Gen.KernelIdeal.Value
import proofs.«112258_j90082644066743_1_alg».proof.Proof.BandedTile
import proofs.«112258_j90082644066743_1_alg».proof.Proof.KernelHost

noncomputable section

namespace Cert.KernelIdeal.Adjs

open Cert.KernelIdeal Cert.KernelIdeal.Gen Cert.KernelIdeal.Value Idealize.ShloMosaic Idealize.ShloMosaic.TcCoe Idealize.SL.Sem
open Idealize.ShloMosaic.Pipeline (Dat)
open Cert.Banded (adjs under)
open Cert.KernelIdeal.HostSide (patchesOf bandMask patches_found mask_found)

variable {F : FTy → Type} [FloatOps F]
variable (m : (ℓ : Loc nD τ sig) → Buf (Elt F) ℓ) (ρ : Dev nD → PrngReg)

theorem zero_offsets : (![0, 0] : Fin 2 → Nat) = fun _ => 0 := funext fun a => by fin_cases a <;> rfl

/-- The block indices at grid point `t`: both input tiles are always block `(0, 0)`; the output block is
    `(t, 0, 0)`. Decided over the 73 points. -/
theorem block_indices : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- What point `t` writes back is block `t` of the stacked adjacencies of the weights and the mask as the region
    finds them: inside the block, position `(q, i, j)` holds `σ(w[i, j]) · b[i, j]`, and it lands at array position
    `(107·t + q, i, j)`, under which the tile position is again `(i, j)`. -/
theorem flushed_eq (c : Dev nD) (t : Fin cfg0.N) :
    (dats m 0 c).flushed 2 t
      = ((cfg0.win 2).blk t).view.read (Elt F) (adjs (V m c main_arg2) (V m c main_v38)) := by
  rw [flushed2]
  unfold out0_2
  obtain ⟨a0, a1, b0, b1, o0, o1, o2⟩ := block_indices t
  funext j
  show View.canon [⟨r0_1, k0_pay1 (View.ld (iblk m c 0 t) r0_0) (View.ld (iblk m c 1 t) r0_0)⟩] j
    = adjs (V m c main_arg2) (V m c main_v38) (((cfg0.win 2).blk t).view.emb j)
  rw [canon2_eq]
  simp only [View.ld_unit_zero (S := S128x128) zero_offsets]
  show FloatOps.mulf (FloatOps.logistic (V m c main_arg2 (((cfg0.win 0).blk t).view.emb (ix2_0 j))))
        (V m c main_v38 (((cfg0.win 1).blk t).view.emb (ix2_1 j)))
    = FloatOps.mulf (FloatOps.logistic (V m c main_arg2 (under (((cfg0.win 2).blk t).view.emb j))))
        (V m c main_v38 (under (((cfg0.win 2).blk t).view.emb j)))
  have hw : ((cfg0.win 0).blk t).view.emb (ix2_0 j) = under (((cfg0.win 2).blk t).view.emb j) := by
    funext a; apply Fin.ext
    match a with
    | ⟨0, _⟩ => show win0_0.index t (0 : Fin 2) * 128 + 1 * (j 1).val = win0_2.index t (1 : Fin 3) * 128 + 1 * (j 1).val; omega
    | ⟨1, _⟩ => show win0_0.index t (1 : Fin 2) * 128 + 1 * (j 2).val = win0_2.index t (2 : Fin 3) * 128 + 1 * (j 2).val; omega
  have hb : ((cfg0.win 1).blk t).view.emb (ix2_1 j) = under (((cfg0.win 2).blk t).view.emb j) := by
    funext a; apply Fin.ext
    match a with
    | ⟨0, _⟩ => show win0_1.index t (0 : Fin 2) * 128 + 1 * (j 1).val = win0_2.index t (1 : Fin 3) * 128 + 1 * (j 1).val; omega
    | ⟨1, _⟩ => show win0_1.index t (1 : Fin 2) * 128 + 1 * (j 2).val = win0_2.index t (2 : Fin 3) * 128 + 1 * (j 2).val; omega
  rw [hw, hb]

/-- An array position is in point `t`'s block iff each coordinate is in the block's range on its axis. -/
theorem mem_block (t : Fin cfg0.N) (i : S7811x128x128.Idx) :
    i ∈ ((cfg0.win 2).blk t).view.set
      ↔ ∀ a : Fin 3, win0_2.index t a * S107x128x128.size a ≤ (i a).val
          ∧ (i a).val < win0_2.index t a * S107x128x128.size a + S107x128x128.size a := by
  show i ∈ ((View.whole main_v39).slice (win0_2.rect t)).set ↔ _
  rw [View.set_slice_whole, Rect.mem_set_unit]
  exact Iff.rfl

/-- Every position of the array is written: patch `p` is in the block of point `p / 107`, since `73 · 107 = 7811`. -/
theorem covered (i : S7811x128x128.Idx) :
    ∃ t : Fin cfg0.N, (cfg0.win 2).flush t = true ∧ i ∈ ((cfg0.win 2).blk t).view.set := by
  have hi0 : (i 0).val < 7811 := (i 0).isLt
  have hi1 : (i 1).val < 128 := (i 1).isLt
  have hi2 : (i 2).val < 128 := (i 2).isLt
  have hN : cfg0.N = 73 := N_0
  obtain ⟨t, ht⟩ : ∃ t : Fin cfg0.N, t.val = (i 0).val / 107 := ⟨⟨(i 0).val / 107, by rw [hN]; omega⟩, rfl⟩
  obtain ⟨-, -, -, -, o0, o1, o2⟩ := block_indices t
  refine ⟨t, flush0_2 t, ?_⟩
  rw [mem_block]
  intro a
  match a with
  | ⟨0, _⟩ => show win0_2.index t (0 : Fin 3) * 107 ≤ (i 0).val ∧ (i 0).val < win0_2.index t (0 : Fin 3) * 107 + 107; omega
  | ⟨1, _⟩ => show win0_2.index t (1 : Fin 3) * 128 ≤ (i 1).val ∧ (i 1).val < win0_2.index t (1 : Fin 3) * 128 + 128; omega
  | ⟨2, _⟩ => show win0_2.index t (2 : Fin 3) * 128 ≤ (i 2).val ∧ (i 2).val < win0_2.index t (2 : Fin 3) * 128 + 128; omega

/-- After the last point the adjacency array holds the stacked adjacencies of the weights and the mask. -/
theorem final (c : Dev nD) : (dats m 0 c).arrAt 2 cfg0.N = adjs (V m c main_arg2) (V m c main_v38) :=
  (dats m 0 c).arrAt_eq_of_cover 2 (adjs (V m c main_arg2) (V m c main_v38)) (fun t _ => flushed_eq m c t) covered

/-- The run: it terminates with the patches array at the patches of the two launched signals (no grid point touches
    it, so it is as the host operations left it), the adjacency array at the stacked adjacencies of the launched
    weights and the band mask, and the arguments unchanged. -/
theorem run : θ_run defs (onTc (τ := τ) (main (F := F))) ⟨m, fun _ => 0, ρ⟩ fun r => ∀ c : Dev nD,
      r.2.mem ((c : Thread nD τ).loc main_v25)
        = patchesOf (m ((c : Thread nD τ).loc main_arg0)) (m ((c : Thread nD τ).loc main_arg1))
      ∧ r.2.mem ((c : Thread nD τ).loc main_v39) = adjs (m ((c : Thread nD τ).loc main_arg2)) (bandMask (F := F))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
      ⟨((h c).2 main_v25 (Pipeline.mem_restRefs_of main_v25 (by decide) (by decide))).trans (patches_found m c),
        ((post2 m r h c).trans (final m c)).trans (by rw [V_main_arg2, mask_found]),
        kept_main_arg0 m r h c,
        kept_main_arg1 m r h c,
        kept_main_arg2 m r h c⟩)
    (run_main m ρ)

end Cert.KernelIdeal.Adjs

end
-- ==== Proof.lean ====
/-
  The kernel against its reference, over the extended reals.

  Both programs return two arrays. The PATCHES `[7811, 128, 2]` — overlapping windows of the two signals, patch `p`
  holding samples `64·p … 64·p + 127` of each — are computed by the SAME host operations in both programs (an index
  table built from two iotas, two gathers, a concatenation), before any kernel runs; the kernel's grid never
  touches that array, so it ends as computed, and the two programs' terms for it are one term of the arguments.

  The ADJACENCIES `[7811, 128, 128]` are `σ(w[i, j]) · b[i, j]` at every `(p, i, j)`, `w` the edge weights, `b` the band
  mask `0 < |i - j| ≤ 16` (again the same host operations in both programs, so one term), `σ` the logistic function.
  The kernel computes the tile once per grid point with the logistic operation and writes it to 107 patches at a
  time, 73 times (Proof/KernelAdjs.lean); the reference spells `1 / (1 + e^(-w))`, multiplies by the mask and
  copies the tile 7811 times. On the extended reals the logistic function is that quotient by definition
  (Proof/BandedTile.lean), so the two arrays are equal entry by entry, for every input: the precondition is not used.

  The three frames are the generated ones (the reference's is its generated run with the results dropped), and the
  idealization rewrote nothing, so there is nothing to preserve.
-/
import proofs.«112258_j90082644066743_1_alg».proof.Defs
import proofs.«112258_j90082644066743_1_alg».proof.Proof.Gen.Kernel
import proofs.«112258_j90082644066743_1_alg».proof.Proof.Gen.Kernel.Skeleton
import proofs.«112258_j90082644066743_1_alg».proof.Proof.Gen.Kernel.Launch
import proofs.«112258_j90082644066743_1_alg».proof.Proof.Gen.Kernel.Points
import proofs.«112258_j90082644066743_1_alg».proof.Proof.Gen.Kernel.Frame
import proofs.«112258_j90082644066743_1_alg».proof.Proof.Gen.KernelIdeal
import proofs.«112258_j90082644066743_1_alg».proof.Proof.Gen.KernelIdeal.Skeleton
import proofs.«112258_j90082644066743_1_alg».proof.Proof.Gen.KernelIdeal.Launch
import proofs.«112258_j90082644066743_1_alg».proof.Proof.Gen.KernelIdeal.Points
import proofs.«112258_j90082644066743_1_alg».proof.Proof.Gen.KernelIdeal.Frame
import proofs.«112258_j90082644066743_1_alg».proof.Proof.Gen.ReferenceIdeal
import proofs.«112258_j90082644066743_1_alg».proof.Proof.Gen.Pre_finite_inputs
import proofs.«112258_j90082644066743_1_alg».proof.Proof.Gen.KernelIdeal.Value
import proofs.«112258_j90082644066743_1_alg».proof.Proof.Gen.ReferenceIdeal.Run
import proofs.«112258_j90082644066743_1_alg».proof.Proof.BandedTile
import proofs.«112258_j90082644066743_1_alg».proof.Proof.KernelHost
import proofs.«112258_j90082644066743_1_alg».proof.Proof.KernelAdjs
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both runs end with the patches at `patchesOf` of the two signals and with the adjacencies at `adjs w b`, `b` the band
    mask: the kernel's by its run (Proof/KernelAdjs.lean); the reference's because its host operations for the patches
    and for the mask are the kernel's, operation for operation, and the quotient it spells is the logistic function. -/
theorem algebraic : Cert.algebraic_KernelIdeal_ReferenceIdeal := by
  intro m ρ m' ρ' _ hagree
  refine ⟨_, _, Cert.KernelIdeal.Adjs.run (F := Ideal) m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · -- the patches: the same gathers of the same table, of signals that agree
    rw [(hagree c).1, (hagree c).2.1]
    rfl
  · -- the adjacencies: the spelt quotient is the logistic function, and the mask is the same term
    rw [(hagree c).2.2, Cert.Banded.stack_of_quotient]
    rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
